-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) (main_arg2 : IVec S2048x2048 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S256x2048 : Shape := ⟨2, ![256, 2048]⟩
abbrev S512x2048 : Shape := ⟨2, ![512, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .i32⟩
  | .hbm, ⟨3, _⟩ => ⟨S2048x2048, .bf16⟩
  | .hbm, ⟨4, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .i32⟩
  | .local _ .vmem, ⟨3, _⟩ => ⟨S256x2048, .i32⟩
  | .local _ .vmem, ⟨4, _⟩ => ⟨S256x2048, .bf16⟩
  | .local _ .vmem, ⟨5, _⟩ => ⟨S256x2048, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .i32 = 32 ∨ (Rect.block (s := S2048x2048) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S16384x2048.size a
  hwx1_2 : ∀ i : grid1.Coords, EltTy.bits .f32 = 32 ∨ (Rect.block (s := S16384x2048) S512x2048.size (cc1_transform_2 i) (hinb1_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .i32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S2048x2048_S2048x2048_1_0 : S2048x2048.Transposes [1, 0] S2048x2048
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.MaskedWeight.lean ====
/- Region 0 of the kernel program, read as a value. The first pallas_call walks the weight and the mask in eight blocks of 256 rows
   and writes, block by block, the product of each weight with its mask word read as a number, narrowed to the 16-bit format.
   Every block is the restriction of ONE whole-array function (`maskedWeight`) to the block's rows, and the eight blocks tile
   the 2048 rows, so the array the region leaves IS that function of the two arrays the region found. -/
import proofs.«138469_j43920335569022_1_alg».proof.Proof.Gen.KernelIdeal.Frame
import Idealize.ShloMosaic.Lib.Pipeline.Value
import Idealize.ShloMosaic.Lib.ValueIdx

noncomputable section

namespace Cert.KernelIdeal.MaskedWeight

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one rectangle starts at the origin of its block. -/
theorem origin : (![0, 0] : Fin 2 → Nat) = fun _ => 0 := funext fun a => by fin_cases a <;> rfl

/-- The masked weight, entry by entry: weight times the mask word as a number, in the narrow format. -/
abbrev maskedWeight (w : S2048x2048.Idx → Elt F .f32) (k : S2048x2048.Idx → Elt F .i32) : S2048x2048.Idx → Elt F .bf16 :=
  fun i => FloatOps.truncf .bf16 bitsLt_bf16_f32 (FloatOps.mulf (w i) (FloatOps.sitofp .f32 (k i)))

/-- The body's payload is that expression of its two loaded blocks, entry by entry. -/
theorem payload_eq (x0 : Vec F S256x2048 .f32) (x1 : Vec F S256x2048 .i32) :
    k0_pay1 x0 x1 = fun j => FloatOps.truncf .bf16 bitsLt_bf16_f32 (FloatOps.mulf (x0 j) (FloatOps.sitofp .f32 (x1 j))) := rfl

/-- The three windows move together: at every grid point the weight's, the mask's and the result's block index are the
    same row-block number, below 8, and column-block 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 7 ∧ win0_2.index t (1 : Fin 2) = 0 :=
  (by decide +kernel : ∀ t : Fin grid0.N, _)

/-- Every row-block is some grid point's. -/
theorem index_onto : ∀ q0 : Fin 8, ∃ t : Fin cfg0.N, win0_2.index t = ![q0.val, 0] :=
  (by decide +kernel : ∀ q0 : Fin 8, ∃ t : Fin grid0.N, win0_2.index t = ![q0.val, 0])

/-- What grid point `t` writes back is block `t` of the masked weight of the two arrays as the region found them. -/
theorem flushed_eq (c : Dev nD) (t : Fin cfg0.N) :
    (dat0 V c).flushed 2 t = ((cfg0.win 2).blk t).view.read (Elt F) (maskedWeight (V c main_arg1) (V c main_arg2)) := by
  show (cfg0.win 2).cut (grid0.coords t) ((dat0 V c).after 2 t) = _
  rw [after0_2]
  unfold out0_2
  rw [View.canon_unit_zero origin]
  simp only [View.ld_unit_zero (S := S256x2048) origin]
  rw [payload_eq]
  obtain ⟨e0, e1, e2, e3, e4, e5⟩ := index_facts t
  funext j
  show FloatOps.truncf .bf16 bitsLt_bf16_f32 (FloatOps.mulf (V c main_arg1 (((cfg0.win 0).blk t).view.emb j)) (FloatOps.sitofp .f32 (V c main_arg2 (((cfg0.win 1).blk t).view.emb j))))
    = FloatOps.truncf .bf16 bitsLt_bf16_f32 (FloatOps.mulf (V c main_arg1 (((cfg0.win 2).blk t).view.emb j)) (FloatOps.sitofp .f32 (V c main_arg2 (((cfg0.win 2).blk t).view.emb j))))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 2048 + 1 * (j 1).val = win0_2.index t (1 : Fin 2) * 2048 + 1 * (j 1).val; omega
  rw [h0, h1]

/-- An index of the result array is in point `t`'s block iff each coordinate lies in the block's range on its axis. -/
theorem mem_block (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v0).slice (win0_2.rect t)).set ↔ _
  rw [View.set_slice_whole, Rect.mem_set_unit]
  exact Iff.rfl

/-- The eight blocks tile the array: row `r` lies in the block of the point whose row-block number is `r / 256`. -/
theorem covered (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The array region 0 leaves: the masked weight of the weight and mask arrays it found. -/
theorem final (c : Dev nD) : (dat0 V c).arrAt 2 cfg0.N = maskedWeight (V c main_arg1) (V c main_arg2) :=
  (dat0 V c).arrAt_eq_of_cover 2 (maskedWeight (V c main_arg1) (V c main_arg2)) (fun t _ => flushed_eq V c t) covered

end Cert.KernelIdeal.MaskedWeight

end
-- ==== Proof.RowProducts.lean ====
/- Region 1 of the kernel program, read as a value at the ideal instance. The second pallas_call walks the input in 32 blocks of
   512 rows; at each it holds the whole second operand and writes, for row `p` of the block and column `q`, the sum over `k` of
   input[p, k] · operand[q, k] — both operands contracted along their SECOND axis, so column `q` of the result meets ROW `q` of the
   operand. (Narrowing the input block to 16 bits is the identity on extended reals, and the accumulator starts at zero.) Every block is
   the restriction of one whole-array function (`rowsAgainstRows`) and the 32 blocks tile the 16384 rows. -/
import proofs.«138469_j43920335569022_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RowProducts

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's rectangles start at the origin of their blocks. -/
theorem origin : (![0, 0] : Fin 2 → Nat) = fun _ => 0 := funext fun a => by fin_cases a <;> rfl

/-- Entry (n, o) of the result: row `n` of the input against row `o` of the second operand. -/
abbrev rowsAgainstRows (x : S16384x2048.Idx → EReal) (u : S2048x2048.Idx → EReal) : S16384x2048.Idx → EReal :=
  fun i => ∑ k : Fin 2048, x (ix2 (i 0) k) * u (ix2 (i 1) k)

/-! ## The product's operand indices, axis by axis

Output index `j` and contraction index `q`: the left operand is read at (j 0, q), the right at (j 1, q). -/

theorem lhs_axis0 (j : S512x2048.Idx) (q : dot_S512x2048_S2048x2048_S512x2048_1_1_0_0_n_n.contr.Idx) :
    (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_axis1 (j : S512x2048.Idx) (q : dot_S512x2048_S2048x2048_S512x2048_1_1_0_0_n_n.contr.Idx) :
    (dot_S512x2048_S2048x2048_S512x2048_1_1_0_0_n_n.lhsIdx j q 1).val = (q ⟨0, by decide⟩).val :=
  dot_S512x2048_S2048x2048_S512x2048_1_1_0_0_n_n.lhsIdx_val_of_single rfl j q
theorem rhs_axis0 (j : S512x2048.Idx) (q : dot_S512x2048_S2048x2048_S512x2048_1_1_0_0_n_n.contr.Idx) :
    (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_axis1 (j : S512x2048.Idx) (q : dot_S512x2048_S2048x2048_S512x2048_1_1_0_0_n_n.contr.Idx) :
    (dot_S512x2048_S2048x2048_S512x2048_1_1_0_0_n_n.rhsIdx j q 1).val = (q ⟨0, by decide⟩).val :=
  dot_S512x2048_S2048x2048_S512x2048_1_1_0_0_n_n.rhsIdx_val_of_single rfl j q

/-- The body's payload at (p, q): the sum over `k` of block-input[p, k] · operand[q, k]. -/
theorem payload_apply (x0 : Vec Ideal S512x2048 .f32) (x1 : Vec Ideal S2048x2048 .bf16) (p : Fin 512) (q : Fin 2048) :
    k1_pay1 (F := Ideal) x0 x1 (ix2 p q) = ∑ k : Fin 2048, x0 (ix2 p k) * x1 (ix2 q k) := by
  unfold k1_pay1
  rw [shapeCast_self]
  show FloatOps.matmul dot_S512x2048_S2048x2048_S512x2048_1_1_0_0_n_n none (truncf (F := Ideal) .bf16 x0 bitsLt_bf16_f32) x1 (constant (F := Ideal) S512x2048 .f32 0x00000000#32) (ix2 p q) = _
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]
  rfl

/-- The two arrays region 1 reads, as the region finds them, at their literal types. -/
abbrev inputArr (c : Dev nD) : S16384x2048.Idx → EReal := V c main_arg0
abbrev operandArr (c : Dev nD) : S2048x2048.Idx → EReal := V c main_v0

/-- The input's and the result's windows move together down the rows (row-block number below 32, column-block 0); the second
    operand's window stays at the one block that is the whole array. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 31 ∧ win1_2.index t (1 : Fin 2) = 0 :=
  (by decide +kernel : ∀ t : Fin grid1.N, _)

/-- Every row-block is some grid point's. -/
theorem index_onto : ∀ q0 : Fin 32, ∃ t : Fin cfg1.N, win1_2.index t = ![q0.val, 0] :=
  (by decide +kernel : ∀ q0 : Fin 32, ∃ t : Fin grid1.N, win1_2.index t = ![q0.val, 0])

/-- What grid point `t` writes back is block `t` of `rowsAgainstRows` of the input and the second operand as the region found them. -/
theorem flushed_eq (c : Dev nD) (t : Fin cfg1.N) :
    (dat1 V c).flushed 2 t = ((cfg1.win 2).blk t).view.read (Elt Ideal) (rowsAgainstRows (inputArr V c) (operandArr V c)) := by
  show (cfg1.win 2).cut (grid1.coords t) ((dat1 V c).after 2 t) = _
  rw [after1_2]
  unfold out1_2
  rw [View.canon_unit_zero origin]
  simp only [View.ld_unit_zero (S := S512x2048) origin, View.ld_unit_zero (S := S2048x2048) origin]
  obtain ⟨e0, e1, e2, e3, e4, e5⟩ := index_facts t
  funext j
  obtain ⟨p, q, rfl⟩ : ∃ (p : Fin 512) (q : Fin 2048), j = ix2 p q := ⟨j 0, j 1, eq_ix2 j⟩
  refine (payload_apply (iblk1 V c 0 t) (iblk1 V c 1 t) p q).trans ?_
  show _ = ∑ k : Fin 2048, inputArr V c (ix2 ((((cfg1.win 2).blk t).view.emb (ix2 p q)) 0) k) * operandArr V c (ix2 ((((cfg1.win 2).blk t).view.emb (ix2 p q)) 1) k)
  refine Finset.sum_congr rfl fun k _ => ?_
  show inputArr V c (((cfg1.win 0).blk t).view.emb (ix2 p k)) * operandArr V c (((cfg1.win 1).blk t).view.emb (ix2 q k))
    = inputArr V c (ix2 ((((cfg1.win 2).blk t).view.emb (ix2 p q)) 0) k) * operandArr V c (ix2 ((((cfg1.win 2).blk t).view.emb (ix2 p q)) 1) k)
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 2048 + 1 * k.val = k.val; omega
  have h1 : ((cfg1.win 1).blk t).view.emb (ix2 q k) = ix2 ((((cfg1.win 2).blk t).view.emb (ix2 p q)) 1) k := by
    funext a; apply Fin.ext
    match a with
    | ⟨0, _⟩ => show win1_1.index t (0 : Fin 2) * 2048 + 1 * q.val = win1_2.index t (1 : Fin 2) * 2048 + 1 * q.val; omega
    | ⟨1, _⟩ => show win1_1.index t (1 : Fin 2) * 2048 + 1 * k.val = k.val; omega
  rw [h0, h1]
  rfl

/-- An index of the result array is in point `t`'s block iff each coordinate lies in the block's range on its axis. -/
theorem mem_block (t : Fin cfg1.N) (i : S16384x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v1).slice (win1_2.rect t)).set ↔ _
  rw [View.set_slice_whole, Rect.mem_set_unit]
  exact Iff.rfl

/-- The 32 blocks tile the array: row `r` lies in the block of the point whose row-block number is `r / 512`. -/
theorem covered (i : S16384x2048.Idx) : ∃ t : Fin cfg1.N, (cfg1.win 2).flush t = true ∧ i ∈ ((cfg1.win 2).blk t).view.set := by
  have hi0 : (i 0).val < 16384 := (i 0).isLt
  have hi1 : (i 1).val < 2048 := (i 1).isLt
  obtain ⟨t, ht⟩ := index_onto ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- The array region 1 leaves: every row of the input against every row of the second operand, as the region found the two. -/
theorem final (c : Dev nD) : (dat1 V c).arrAt 2 cfg1.N = rowsAgainstRows (inputArr V c) (operandArr V c) :=
  (dat1 V c).arrAt_eq_of_cover 2 (rowsAgainstRows (inputArr V c) (operandArr V c)) (fun t _ => flushed_eq V c t) covered

end Cert.KernelIdeal.RowProducts

end
-- ==== Proof.WholeValue.lean ====
/- The kernel program's result as ONE function of its three arguments, at the ideal instance. The run's fold through the two
   regions is read back: the result array is what region 1 leaves, every row of the input against every row of its second operand;
   region 1 finds the input untouched (region 0 does not write it) and, as its second operand, what region 0 left — the masked weight
   of the weight and mask as launched. So result[n, o] = Σ_k input[n, k] · (weight[o, k] · mask[o, k]). -/
import proofs.«138469_j43920335569022_1_alg».proof.Proof.RunNamed
import proofs.«138469_j43920335569022_1_alg».proof.Proof.MaskedWeight
import proofs.«138469_j43920335569022_1_alg».proof.Proof.RowProducts

noncomputable section

namespace Cert.KernelIdeal.WholeValue

open Cert.KernelIdeal Cert.KernelIdeal.Gen Idealize.ShloMosaic Idealize.ShloMosaic.TcCoe Idealize.SL.Sem
open Cert.KernelIdeal.MaskedWeight Cert.KernelIdeal.RowProducts

variable (m : (ℓ : Loc nD τ sig) → Buf (Elt Ideal) ℓ) (ρ : Dev nD → PrngReg)

/-- The masked linear layer, entry by entry: row `n` of the input against row `o` of the masked weight. -/
abbrev maskedLinear (x : S16384x2048.Idx → EReal) (w : S2048x2048.Idx → EReal) (k : S2048x2048.Idx → BitVec 32) : S16384x2048.Idx → EReal :=
  rowsAgainstRows x (maskedWeight (F := Ideal) w k)

/-- Region 1 finds the input as launched: region 0 has no window on it. -/
theorem entry_input (c : Dev nD) : V1 m ρ c main_arg0 = m ((c : Thread nD τ).loc main_arg0) :=
  W1_of_ne m ρ c main_arg0 (by decide)

/-- Region 1 finds, as its second operand, what region 0 left: the masked weight of the weight and mask as launched. -/
theorem entry_operand (c : Dev nD) :
    V1 m ρ c main_v0 = maskedWeight (F := Ideal) (m ((c : Thread nD τ).loc main_arg1)) (m ((c : Thread nD τ).loc main_arg2)) :=
  (W1_arr m ρ c 2).trans (MaskedWeight.final (V0 m ρ) c)

/-- The result array at the end of the fold. -/
theorem result_eq (c : Dev nD) :
    W2 m ρ c (Proc.devRef .tc main_v1)
      = maskedLinear (m ((c : Thread nD τ).loc main_arg0)) (m ((c : Thread nD τ).loc main_arg1)) (m ((c : Thread nD τ).loc main_arg2)) := by
  refine (W2_arr m ρ c 2).trans ?_
  refine (RowProducts.final (V1 m ρ) c).trans ?_
  exact congrArg₂ rowsAgainstRows (entry_input m ρ c) (entry_operand m ρ c)

/-- Every weakly fair execution of the kernel program terminates with the result at the masked linear layer of the arguments,
    the arguments unchanged. -/
theorem run : θ_run defs (onTc (τ := τ) (main (F := Ideal))) ⟨m, fun _ => 0, ρ⟩ (fun r => ∀ c : Dev nD,
      r.2.mem ((c.tc : Thread nD τ).loc main_v1)
        = maskedLinear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (GenRun.run_named m ρ)

end Cert.KernelIdeal.WholeValue

end
-- ==== Proof.SameFunction.lean ====
/- The reference program is the same function. It converts the mask to numbers, multiplies by the weight, transposes the product and
   contracts the input's second axis with the transposed product's FIRST axis: entry (n, o) is Σ_k input[n, k] · product^T[k, o], and
   product^T[k, o] = product[o, k] = weight[o, k] · mask[o, k]. The kernel contracts with ROW `o` of the untransposed product instead, and
   narrows to 16 bits on the way, which on extended reals changes nothing: term by term the two sums are the same, so no law of the
   extended reals — and no finiteness of the inputs — is used. -/
import proofs.«138469_j43920335569022_1_alg».proof.Proof.Gen.ReferenceIdeal.Read
import proofs.«138469_j43920335569022_1_alg».proof.Proof.WholeValue

noncomputable section

namespace Cert.ReferenceIdeal.SameFunction

open Cert.ReferenceIdeal Idealize.ShloMosaic Idealize.ShloMosaic.TcCoe Idealize.SL.Sem
open Idealize.ShloMosaic.ValueIdx
open Cert.KernelIdeal.WholeValue (maskedLinear)

/-- The left operand of the reference's product is read at (n, k). -/
theorem left_index (i : S16384x2048.Idx) (k : Fin 2048) : Read.lidx_main_v3 i k = ix2 (i 0) k :=
  funext fun a => Fin.ext (by match a with | ⟨0, _⟩ => rfl | ⟨1, _⟩ => rfl)

/-- The right operand, through the transpose, is read at (o, k). -/
theorem right_index (i : S16384x2048.Idx) (k : Fin 2048) : Read.idx_main_v2 (Read.ridx_main_v3 i k) = ix2 (i 1) k :=
  funext fun a => Fin.ext (by match a with | ⟨0, _⟩ => rfl | ⟨1, _⟩ => rfl)

/-- The reference's result is the masked linear layer of its arguments. -/
theorem reference_eq (x0 : (⟨S16384x2048, .f32⟩ : BufTy).Contents (Elt Ideal)) (x1 : (⟨S2048x2048, .f32⟩ : BufTy).Contents (Elt Ideal))
    (x2 : (⟨S2048x2048, .i32⟩ : BufTy).Contents (Elt Ideal)) :
    Read.val_main_v3 (F := Ideal) x0 x1 x2 = maskedLinear x0 x1 x2 := by
  funext i
  rw [Read.val_main_v3_apply]
  refine Finset.sum_congr rfl fun k _ => ?_
  rw [Read.val_main_v2_apply, Read.val_main_v1_apply, Read.val_main_v0_apply, left_index, right_index]
  rfl

end Cert.ReferenceIdeal.SameFunction

end
-- ==== Proof.lean ====
/- A masked linear layer: out = input · (weight ⊙ mask)ᵀ, with input [16384, 2048], weight and mask [2048, 2048].

   The kernel program is two pallas_calls. The first forms the masked weight, weight[o, k] · mask[o, k] (the mask word read as a
   number), in eight blocks of 256 rows, narrowed to 16 bits. The second walks the input in 32 blocks of 512 rows and contracts each
   with the whole masked weight along BOTH operands' second axis: out[n, o] = Σ_k input[n, k] · masked[o, k]. The reference forms the
   same product, transposes it, and contracts the input's second axis with the transpose's first: Σ_k input[n, k] · maskedᵀ[k, o].

   On extended reals a change of float format is the identity, so the two results are the same sum TERM BY TERM
   (maskedᵀ[k, o] = masked[o, k]); no law of the extended reals is used, and the precondition (finite inputs) is never opened.

   Modules: `RunNamed` — the program's run with the result array named (the launch over the two regions, once more, reading
   the result as well as the arguments); `MaskedWeight` — region 0's array is the masked weight, whatever the float instance;
   `RowProducts` — region 1's array is rows-against-rows of the two arrays it finds; `WholeValue` — the fold through both regions,
   the kernel's result as one function `maskedLinear` of the three arguments; `SameFunction` — the reference's composed term is
   `maskedLinear` too. The three frames are the two generated frames and the reference's generated run with the result dropped;
   the idealization rewrote no operation, so `preserves` has nothing to state. -/
import proofs.«138469_j43920335569022_1_alg».proof.Defs
import proofs.«138469_j43920335569022_1_alg».proof.Proof.Gen.Kernel
import proofs.«138469_j43920335569022_1_alg».proof.Proof.Gen.Kernel.Skeleton
import proofs.«138469_j43920335569022_1_alg».proof.Proof.Gen.Kernel.Launch
import proofs.«138469_j43920335569022_1_alg».proof.Proof.Gen.Kernel.Points
import proofs.«138469_j43920335569022_1_alg».proof.Proof.Gen.Kernel.Frame
import proofs.«138469_j43920335569022_1_alg».proof.Proof.Gen.KernelIdeal
import proofs.«138469_j43920335569022_1_alg».proof.Proof.Gen.KernelIdeal.Skeleton
import proofs.«138469_j43920335569022_1_alg».proof.Proof.Gen.KernelIdeal.Launch
import proofs.«138469_j43920335569022_1_alg».proof.Proof.Gen.KernelIdeal.Points
import proofs.«138469_j43920335569022_1_alg».proof.Proof.Gen.KernelIdeal.Frame
import proofs.«138469_j43920335569022_1_alg».proof.Proof.Gen.ReferenceIdeal
import proofs.«138469_j43920335569022_1_alg».proof.Proof.Gen.Pre_finite_inputs
import proofs.«138469_j43920335569022_1_alg».proof.Proof.Gen.ReferenceIdeal.Run
import proofs.«138469_j43920335569022_1_alg».proof.Proof.Gen.ReferenceIdeal.Read
import proofs.«138469_j43920335569022_1_alg».proof.Proof.WholeValue
import proofs.«138469_j43920335569022_1_alg».proof.Proof.SameFunction
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the three arguments both programs end with the result at `maskedLinear` of the kernel's arguments:
    the kernel by the fold through its two regions, the reference because its composed term is the same function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  exact Cert.ReferenceIdeal.SameFunction.reference_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
